-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S2048x2048 .f32) (main_arg8 : FVec F S2048 .f32) (main_arg9 : FVec F S1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  main_v48

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 20
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S1x2048, .f32⟩
  | .hbm, ⟨10, _⟩ => ⟨S4096x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S512x2048, .bf16⟩
  | .local _ .vmem, ⟨7, _⟩ => ⟨S512x2048, .bf16⟩
  | .local _ .vmem, ⟨8, _⟩ => ⟨S1x512, .f32⟩
  | .local _ .vmem, ⟨9, _⟩ => ⟨S1x512, .f32⟩
  | .local _ .vmem, ⟨10, _⟩ => ⟨S512x2048, .bf16⟩
  | .local _ .vmem, ⟨11, _⟩ => ⟨S512x2048, .bf16⟩
  | .local _ .vmem, ⟨12, _⟩ => ⟨S1x512, .f32⟩
  | .local _ .vmem, ⟨13, _⟩ => ⟨S1x512, .f32⟩
  | .local _ .vmem, ⟨14, _⟩ => ⟨S512x2048, .bf16⟩
  | .local _ .vmem, ⟨15, _⟩ => ⟨S512x2048, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x2048.size a
  hwx0_5 : ∀ i : grid0.Coords, EltTy.bits .bf16 = 32 ∨ (Rect.block (s := S2048x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S2048x2048.size a
  hwx0_7 : ∀ i : grid0.Coords, EltTy.bits .bf16 = 32 ∨ (Rect.block (s := S2048x2048) S512x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x2048.size a
  hwx0_9 : ∀ i : grid0.Coords, EltTy.bits .f32 = 32 ∨ (Rect.block (s := S1x2048) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x2048.size a
  hwx0_10 : ∀ i : grid0.Coords, EltTy.bits .f32 = 32 ∨ (Rect.block (s := S4096x2048) S512x512.size (cc0_transform_10 i) (hinb0_10 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S2048x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S2048x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S2048x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Cell.lean ====
/-
  One step of a long short-term memory cell, entry by entry, on the extended reals.

  Four gates read the same input row. A gate's pre-activation at entry (p, q) is the inner product of input row p with
  that gate's weight row q, plus the gate's bias at q. The input, forget and output gates pass it through the logistic
  function, the candidate gate through the hyperbolic tangent; the new cell value is
  forget · (old cell value at q) + input · candidate, and the hidden value is output · tanh (new cell value).

  The extents are parameters: one tile of the hidden matrix, computed from a tile of input rows and tiles of weight rows,
  and the whole matrix, computed from the whole arrays, are the same function (`hidden`), and `hidden_congr` says the
  value at an entry depends only on the input row, the four weight rows, the four bias entries and the old cell entry it reads.
  Nothing here uses distributivity or cancellation, so nothing needs the entries to be finite.
-/
import Idealize.ShloMosaic.PureOps.Ideal
import Idealize.ShloMosaic.Lib.ValueIdx
import Idealize.ShloMosaic.Lib.IdealHost

noncomputable section

namespace Cert.Cell

open Idealize.ShloMosaic Idealize.ShloMosaic.ValueIdx
open scoped BigOperators

/-- A gate's pre-activation at (p, q): input row p against weight row q, plus the bias (a one-row matrix) at q. -/
def pre {R C K : ℕ} (x : (⟨2, ![R, K]⟩ : Shape).Idx → EReal) (W : (⟨2, ![C, K]⟩ : Shape).Idx → EReal)
    (b : (⟨2, ![1, C]⟩ : Shape).Idx → EReal) (p : Fin R) (q : Fin C) : EReal :=
  (∑ k : Fin K, x (ix2 p k) * W (ix2 q k)) + b (ix2 0 q)

/-- The hidden value at (p, q): output gate times tanh of (forget gate · old cell + input gate · candidate). -/
def hidden {R C K : ℕ} (x : (⟨2, ![R, K]⟩ : Shape).Idx → EReal)
    (Wi : (⟨2, ![C, K]⟩ : Shape).Idx → EReal) (bi : (⟨2, ![1, C]⟩ : Shape).Idx → EReal)
    (Wf : (⟨2, ![C, K]⟩ : Shape).Idx → EReal) (bf : (⟨2, ![1, C]⟩ : Shape).Idx → EReal)
    (Wg : (⟨2, ![C, K]⟩ : Shape).Idx → EReal) (bg : (⟨2, ![1, C]⟩ : Shape).Idx → EReal)
    (Wo : (⟨2, ![C, K]⟩ : Shape).Idx → EReal) (bo : (⟨2, ![1, C]⟩ : Shape).Idx → EReal)
    (cx : (⟨2, ![1, C]⟩ : Shape).Idx → EReal) (p : Fin R) (q : Fin C) : EReal :=
  Ideal.logistic (pre x Wo bo p q) *
    Ideal.tanh (Ideal.logistic (pre x Wf bf p q) * cx (ix2 0 q) + Ideal.logistic (pre x Wi bi p q) * Ideal.tanh (pre x Wg bg p q))

/-- A pre-activation depends only on the input row, the weight row and the bias entry it reads. -/
theorem pre_congr {R C K R' C' : ℕ} {x : (⟨2, ![R, K]⟩ : Shape).Idx → EReal} {x' : (⟨2, ![R', K]⟩ : Shape).Idx → EReal}
    {W : (⟨2, ![C, K]⟩ : Shape).Idx → EReal} {W' : (⟨2, ![C', K]⟩ : Shape).Idx → EReal}
    {b : (⟨2, ![1, C]⟩ : Shape).Idx → EReal} {b' : (⟨2, ![1, C']⟩ : Shape).Idx → EReal}
    {p : Fin R} {q : Fin C} {p' : Fin R'} {q' : Fin C'}
    (hx : ∀ k : Fin K, x (ix2 p k) = x' (ix2 p' k)) (hW : ∀ k : Fin K, W (ix2 q k) = W' (ix2 q' k))
    (hb : b (ix2 0 q) = b' (ix2 0 q')) : pre x W b p q = pre x' W' b' p' q' := by
  unfold pre
  rw [hb]
  exact congrArg (· + b' (ix2 0 q')) (Finset.sum_congr rfl fun k _ => by rw [hx k, hW k])

/-- So does the hidden value: a tile's entry is the whole matrix' entry when the rows and entries it reads agree. -/
theorem hidden_congr {R C K R' C' : ℕ} {x : (⟨2, ![R, K]⟩ : Shape).Idx → EReal} {x' : (⟨2, ![R', K]⟩ : Shape).Idx → EReal}
    {Wi Wf Wg Wo : (⟨2, ![C, K]⟩ : Shape).Idx → EReal} {Wi' Wf' Wg' Wo' : (⟨2, ![C', K]⟩ : Shape).Idx → EReal}
    {bi bf bg bo cx : (⟨2, ![1, C]⟩ : Shape).Idx → EReal} {bi' bf' bg' bo' cx' : (⟨2, ![1, C']⟩ : Shape).Idx → EReal}
    {p : Fin R} {q : Fin C} {p' : Fin R'} {q' : Fin C'}
    (hx : ∀ k : Fin K, x (ix2 p k) = x' (ix2 p' k))
    (hWi : ∀ k : Fin K, Wi (ix2 q k) = Wi' (ix2 q' k)) (hbi : bi (ix2 0 q) = bi' (ix2 0 q'))
    (hWf : ∀ k : Fin K, Wf (ix2 q k) = Wf' (ix2 q' k)) (hbf : bf (ix2 0 q) = bf' (ix2 0 q'))
    (hWg : ∀ k : Fin K, Wg (ix2 q k) = Wg' (ix2 q' k)) (hbg : bg (ix2 0 q) = bg' (ix2 0 q'))
    (hWo : ∀ k : Fin K, Wo (ix2 q k) = Wo' (ix2 q' k)) (hbo : bo (ix2 0 q) = bo' (ix2 0 q'))
    (hcx : cx (ix2 0 q) = cx' (ix2 0 q')) :
    hidden x Wi bi Wf bf Wg bg Wo bo cx p q = hidden x' Wi' bi' Wf' bf' Wg' bg' Wo' bo' cx' p' q' := by
  unfold hidden
  rw [pre_congr hx hWo hbo, pre_congr hx hWf hbf, pre_congr hx hWi hbi, pre_congr hx hWg hbg, hcx]

/-- The logistic function as a host program spells it, one over one plus e to the minus z with the constant one given by
    its single-precision pattern, is the logistic function. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]; rfl

/-- A bias vector laid out as a one-row matrix. -/
def row {C : ℕ} (b : (⟨1, ![C]⟩ : Shape).Idx → EReal) : (⟨2, ![1, C]⟩ : Shape).Idx → EReal := fun j => b (ix1 (j 1))

/-- The whole hidden matrix as one function of the ten argument arrays (the four biases given as vectors). -/
def next {R C K : ℕ} (x : (⟨2, ![R, K]⟩ : Shape).Idx → EReal)
    (Wi : (⟨2, ![C, K]⟩ : Shape).Idx → EReal) (bi : (⟨1, ![C]⟩ : Shape).Idx → EReal)
    (Wf : (⟨2, ![C, K]⟩ : Shape).Idx → EReal) (bf : (⟨1, ![C]⟩ : Shape).Idx → EReal)
    (Wg : (⟨2, ![C, K]⟩ : Shape).Idx → EReal) (bg : (⟨1, ![C]⟩ : Shape).Idx → EReal)
    (Wo : (⟨2, ![C, K]⟩ : Shape).Idx → EReal) (bo : (⟨1, ![C]⟩ : Shape).Idx → EReal)
    (cx : (⟨2, ![1, C]⟩ : Shape).Idx → EReal) : (⟨2, ![R, C]⟩ : Shape).Idx → EReal :=
  fun j => hidden x Wi (row bi) Wf (row bf) Wg (row bg) Wo (row bo) cx (j 0) (j 1)

end Cert.Cell

end
-- ==== Proof.GateTile.lean ====
/-
  What the kernel body leaves in one tile of the hidden matrix, entry by entry.

  The body multiplies a tile of input rows (512 × 2048) by a tile of weight rows (512 × 2048) with the contraction on the
  second axis of BOTH operands, so entry (p, q) of the product is the inner product of input row p with weight row q; it
  adds the bias tile (one row of 512) along the rows, applies the gate's activation, and combines the four gates with the
  old cell row. Entry (p, q) of what it stores is therefore `Cell.hidden` of the ten loaded tiles at (p, q).
-/
import proofs.«136976_j60292750901718_1_alg».proof.Proof.Gen.KernelIdeal.Skeleton
import proofs.«136976_j60292750901718_1_alg».proof.Proof.Cell
import Idealize.ShloMosaic.PureOps.Ideal.Laws
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx
open scoped BigOperators

/-! ## The product with both operands contracted on their second axis -/

/-- The left operand's row is the result's row. -/
theorem lhs_0 (i : S512x512.Idx) (κ : dot_S512x2048_S512x2048_S512x512_1_1_0_0_n_n.contr.Idx) :
    (dot_S512x2048_S512x2048_S512x512_1_1_0_0_n_n.lhsIdx i κ 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- The left operand's column is the contraction position. -/
theorem lhs_1 (i : S512x512.Idx) (κ : dot_S512x2048_S512x2048_S512x512_1_1_0_0_n_n.contr.Idx) :
    (dot_S512x2048_S512x2048_S512x512_1_1_0_0_n_n.lhsIdx i κ 1).val = (κ ⟨0, by decide⟩).val :=
  dot_S512x2048_S512x2048_S512x512_1_1_0_0_n_n.lhsIdx_val_of_single rfl i κ
/-- The right operand's row is the result's column. -/
theorem rhs_0 (i : S512x512.Idx) (κ : dot_S512x2048_S512x2048_S512x512_1_1_0_0_n_n.contr.Idx) :
    (dot_S512x2048_S512x2048_S512x512_1_1_0_0_n_n.rhsIdx i κ 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- The right operand's column is the contraction position. -/
theorem rhs_1 (i : S512x512.Idx) (κ : dot_S512x2048_S512x2048_S512x512_1_1_0_0_n_n.contr.Idx) :
    (dot_S512x2048_S512x2048_S512x512_1_1_0_0_n_n.rhsIdx i κ 1).val = (κ ⟨0, by decide⟩).val :=
  dot_S512x2048_S512x2048_S512x512_1_1_0_0_n_n.rhsIdx_val_of_single rfl i κ

/-- Into the zero accumulator, entry (p, q) of the product is the inner product of row p of the left operand with row q of the right. -/
theorem matmul_rows (l r : FVec Ideal S512x2048 .bf16) (p q : Fin 512) :
    matmul dot_S512x2048_S512x2048_S512x512_1_1_0_0_n_n none l r (constant S512x512 .f32 0x00000000#32) (ix2 p q) = ∑ k : Fin 2048, l (ix2 p k) * r (ix2 q k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun a => Fin.ext (by
    match a with
    | ⟨0, _⟩ => exact lhs_0 _ _
    | ⟨1, _⟩ => exact (lhs_1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun a => Fin.ext (by
    match a with
    | ⟨0, _⟩ => exact rhs_0 _ _
    | ⟨1, _⟩ => exact (rhs_1 _ _).trans hk)
  rw [el, er]

/-! ## A one-row tile laid along every row -/

theorem row_bcast (b : S1x512.Idx → EReal) (p q : Fin 512) :
    broadcastTo S512x512 b broadcasts_S1x512_S512x512 (ix2 p q) = b (ix2 0 q) :=
  broadcastTo_apply b broadcasts_S1x512_S512x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-! ## The gates -/

/-- A gate's pre-activation as the body computes it, at entry (p, q). -/
theorem pre_entry (x w : Vec Ideal S512x2048 .bf16) (b : Vec Ideal S1x512 .f32) (p q : Fin 512) :
    addf (F := Ideal) (matmul (F := Ideal) (φ₁ := .bf16) (φ₂ := .bf16) dot_S512x2048_S512x2048_S512x512_1_1_0_0_n_n none (shapeCast S512x2048 x shapeCasts_S512x2048_S512x2048) (shapeCast S512x2048 w shapeCasts_S512x2048_S512x2048) (constant S512x512 .f32 0x00000000#32))
      (broadcastTo S512x512 (shapeCast S1x512 b shapeCasts_S1x512_S1x512) broadcasts_S1x512_S512x512) (ix2 p q)
    = Cell.pre x w b p q := by
  rw [shapeCast_self, shapeCast_self, shapeCast_self]
  show matmul (F := Ideal) (φ₁ := .bf16) (φ₂ := .bf16) dot_S512x2048_S512x2048_S512x512_1_1_0_0_n_n none x w (constant S512x512 .f32 0x00000000#32) (ix2 p q) + broadcastTo S512x512 b broadcasts_S1x512_S512x512 (ix2 p q) = _
  rw [matmul_rows, row_bcast]
  rfl

theorem input_gate (x0 x1 : Vec Ideal S512x2048 .bf16) (x2 : Vec Ideal S1x512 .f32) (p q : Fin 512) :
    k0_pay3 x0 x1 x2 (ix2 p q) = Ideal.logistic (Cell.pre x0 x1 x2 p q) := by
  unfold k0_pay3 k0_pay2
  exact congrArg Ideal.logistic (pre_entry x0 x1 x2 p q)
theorem forget_gate (x0 x3 : Vec Ideal S512x2048 .bf16) (x4 : Vec Ideal S1x512 .f32) (p q : Fin 512) :
    k0_pay4 x0 x3 x4 (ix2 p q) = Ideal.logistic (Cell.pre x0 x3 x4 p q) := by
  unfold k0_pay4 k0_pay2
  exact congrArg Ideal.logistic (pre_entry x0 x3 x4 p q)
theorem candidate (x0 x5 : Vec Ideal S512x2048 .bf16) (x6 : Vec Ideal S1x512 .f32) (p q : Fin 512) :
    k0_pay5 x0 x5 x6 (ix2 p q) = Ideal.tanh (Cell.pre x0 x5 x6 p q) := by
  unfold k0_pay5 k0_pay2
  exact congrArg Ideal.tanh (pre_entry x0 x5 x6 p q)
theorem output_gate (x0 x7 : Vec Ideal S512x2048 .bf16) (x8 : Vec Ideal S1x512 .f32) (p q : Fin 512) :
    k0_pay6 x0 x7 x8 (ix2 p q) = Ideal.logistic (Cell.pre x0 x7 x8 p q) := by
  unfold k0_pay6 k0_pay2
  exact congrArg Ideal.logistic (pre_entry x0 x7 x8 p q)

/-- The combination of the four gates with the old cell row, at entry (p, q). -/
theorem combine (gi gf gg go : FVec Ideal S512x512 .f32) (cx : Vec Ideal S1x512 .f32) (p q : Fin 512) :
    k0_pay1 gi gf gg go cx (ix2 p q)
    = go (ix2 p q) * Ideal.tanh (gf (ix2 p q) * cx (ix2 0 q) + gi (ix2 p q) * gg (ix2 p q)) := by
  unfold k0_pay1
  exact congrArg (fun z => go (ix2 p q) * Ideal.tanh (gf (ix2 p q) * z + gi (ix2 p q) * gg (ix2 p q))) (row_bcast cx p q)

/-- THE TILE: what the body stores, at entry `y`, is the cell's hidden value of the ten loaded tiles there. -/
theorem stored (x0 x1 : Vec Ideal S512x2048 .bf16) (x2 : Vec Ideal S1x512 .f32) (x3 : Vec Ideal S512x2048 .bf16) (x4 : Vec Ideal S1x512 .f32)
    (x5 : Vec Ideal S512x2048 .bf16) (x6 : Vec Ideal S1x512 .f32) (x7 : Vec Ideal S512x2048 .bf16) (x8 : Vec Ideal S1x512 .f32) (x9 : Vec Ideal S1x512 .f32)
    (y : S512x512.Idx) :
    k0_pay1 (k0_pay3 x0 x1 x2) (k0_pay4 x0 x3 x4) (k0_pay5 x0 x5 x6) (k0_pay6 x0 x7 x8) x9 y
    = Cell.hidden x0 x1 x2 x3 x4 x5 x6 x7 x8 x9 (y 0) (y 1) := by
  obtain ⟨p, q, rfl⟩ : ∃ (p q : Fin 512), y = ix2 p q := ⟨y 0, y 1, eq_ix2 y⟩
  rw [combine, input_gate, forget_gate, candidate, output_gate]
  rfl

end Cert.KernelIdeal.Tile

end
-- ==== Proof.HiddenArray.lean ====
/-
  The kernel's result array after the run is the cell's hidden matrix of the argument arrays.

  The grid has 8 × 4 points; point (i, j) computes tile (i, j) of 512 × 512 entries of the hidden matrix from input rows
  512 i … 512 i + 511, rows 512 j … 512 j + 511 of each weight matrix, and entries 512 j … 512 j + 511 of each bias row and of
  the old cell row. So what point (i, j) writes back is tile (i, j) of ONE function of the arrays as the region finds them
  (`hiddenOf`); the 32 tiles cover the array; and the arrays the region finds are the arguments themselves — a change of
  float format is the identity on the extended reals, and a vector reshaped to one row reads the same entries.
-/
import proofs.«136976_j60292750901718_1_alg».proof.Proof.Gen.KernelIdeal.Value
import proofs.«136976_j60292750901718_1_alg».proof.Proof.GateTile
import proofs.«136976_j60292750901718_1_alg».proof.Proof.Cell
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them, by their literal shapes -/

abbrev aX (c : Dev nD) : S4096x2048.Idx → EReal := V m c main_v0
abbrev aWi (c : Dev nD) : S2048x2048.Idx → EReal := V m c main_v1
abbrev aBi (c : Dev nD) : S1x2048.Idx → EReal := V m c main_v5
abbrev aWf (c : Dev nD) : S2048x2048.Idx → EReal := V m c main_v2
abbrev aBf (c : Dev nD) : S1x2048.Idx → EReal := V m c main_v6
abbrev aWg (c : Dev nD) : S2048x2048.Idx → EReal := V m c main_v3
abbrev aBg (c : Dev nD) : S1x2048.Idx → EReal := V m c main_v7
abbrev aWo (c : Dev nD) : S2048x2048.Idx → EReal := V m c main_v4
abbrev aBo (c : Dev nD) : S1x2048.Idx → EReal := V m c main_v8
abbrev aCx (c : Dev nD) : S1x2048.Idx → EReal := V m c main_arg9

/-- The hidden matrix of the arrays as the region finds them. -/
def hiddenOf (c : Dev nD) : S4096x2048.Idx → EReal := fun j =>
  Cell.hidden (aX m c) (aWi m c) (aBi m c) (aWf m c) (aBf m c) (aWg m c) (aBg m c) (aWo m c) (aBo m c) (aCx m c) (j 0) (j 1)

theorem hz : (![0, 0] : Fin 2 → Nat) = fun _ => 0 := funext fun a => by fin_cases a <;> rfl

/-! ## Which tile each window holds at a point -/

/-- Decided over the 32 points: the input moves with the output's row tile, the weights and the one-row arrays with its
    column tile, and the output's tile indices stay inside 8 × 4. -/
theorem tiles : ∀ t : Fin cfg0.N,
    win0_0.index t (0 : Fin 2) = win0_10.index t (0 : Fin 2) ∧ win0_0.index t (1 : Fin 2) = 0
    ∧ win0_1.index t (0 : Fin 2) = win0_10.index t (1 : Fin 2) ∧ win0_1.index t (1 : Fin 2) = 0
    ∧ win0_2.index t (0 : Fin 2) = 0 ∧ win0_2.index t (1 : Fin 2) = win0_10.index t (1 : Fin 2)
    ∧ win0_3.index t (0 : Fin 2) = win0_10.index t (1 : Fin 2) ∧ win0_3.index t (1 : Fin 2) = 0
    ∧ win0_4.index t (0 : Fin 2) = 0 ∧ win0_4.index t (1 : Fin 2) = win0_10.index t (1 : Fin 2)
    ∧ win0_5.index t (0 : Fin 2) = win0_10.index t (1 : Fin 2) ∧ win0_5.index t (1 : Fin 2) = 0
    ∧ win0_6.index t (0 : Fin 2) = 0 ∧ win0_6.index t (1 : Fin 2) = win0_10.index t (1 : Fin 2)
    ∧ win0_7.index t (0 : Fin 2) = win0_10.index t (1 : Fin 2) ∧ win0_7.index t (1 : Fin 2) = 0
    ∧ win0_8.index t (0 : Fin 2) = 0 ∧ win0_8.index t (1 : Fin 2) = win0_10.index t (1 : Fin 2)
    ∧ win0_9.index t (0 : Fin 2) = 0 ∧ win0_9.index t (1 : Fin 2) = win0_10.index t (1 : Fin 2)
    ∧ win0_10.index t (0 : Fin 2) ≤ 7 ∧ win0_10.index t (1 : Fin 2) ≤ 3 :=
  (by decide +kernel : ∀ t : Fin grid0.N, _)

/-- Every tile of the 8 × 4 is some point's. -/
theorem tiles_onto : ∀ (i : Fin 8) (j : Fin 4), ∃ t : Fin cfg0.N, win0_10.index t = ![i.val, j.val] :=
  (by decide +kernel : ∀ (i : Fin 8) (j : Fin 4), ∃ t : Fin grid0.N, win0_10.index t = ![i.val, j.val])

/-! ## What a point writes back -/

/-- Entry (p, q) of what the body stores at point `t` is the hidden matrix at the array index under it: the tiles the body
    loaded are the rows and entries of the arrays that index reads. -/
theorem tile_entry (c : Dev nD) (t : Fin cfg0.N) (p q : Fin 512) :
    k0_pay1 (k0_pay3 (iblk m c 0 t) (iblk m c 1 t) (iblk m c 2 t)) (k0_pay4 (iblk m c 0 t) (iblk m c 3 t) (iblk m c 4 t))
      (k0_pay5 (iblk m c 0 t) (iblk m c 5 t) (iblk m c 6 t)) (k0_pay6 (iblk m c 0 t) (iblk m c 7 t) (iblk m c 8 t)) (iblk m c 9 t) (ix2 p q)
    = hiddenOf m c (((cfg0.win 10).blk t).view.emb (ix2 p q)) := by
  obtain ⟨e0, e0', e1, e1', e2, e2', e3, e3', e4, e4', e5, e5', e6, e6', e7, e7', e8, e8', e9, e9', b0, b1⟩ := tiles t
  refine (Tile.stored (iblk m c 0 t) (iblk m c 1 t) (iblk m c 2 t) (iblk m c 3 t) (iblk m c 4 t) (iblk m c 5 t) (iblk m c 6 t) (iblk m c 7 t) (iblk m c 8 t) (iblk m c 9 t) (ix2 p q)).trans ?_
  unfold hiddenOf
  refine Cell.hidden_congr (fun k => ?_) (fun k => ?_) ?_ (fun k => ?_) ?_ (fun k => ?_) ?_ (fun k => ?_) ?_ ?_
  · -- the input row
    show V m c main_v0 (((cfg0.win 0).blk t).view.emb (ix2 p k)) = V m c main_v0 (ix2 (((cfg0.win 10).blk t).view.emb (ix2 p q) 0) k)
    refine congrArg (V m c main_v0) (funext fun a => Fin.ext ?_)
    match a with
    | ⟨0, _⟩ => show win0_0.index t (0 : Fin 2) * 512 + 1 * p.val = win0_10.index t (0 : Fin 2) * 512 + 1 * p.val; omega
    | ⟨1, _⟩ => show win0_0.index t (1 : Fin 2) * 2048 + 1 * k.val = k.val; omega
  · -- rows of weight window 1
    show V m c main_v1 (((cfg0.win 1).blk t).view.emb (ix2 q k)) = V m c main_v1 (ix2 (((cfg0.win 10).blk t).view.emb (ix2 p q) 1) k)
    refine congrArg (V m c main_v1) (funext fun a => Fin.ext ?_)
    match a with
    | ⟨0, _⟩ => show win0_1.index t (0 : Fin 2) * 512 + 1 * q.val = win0_10.index t (1 : Fin 2) * 512 + 1 * q.val; omega
    | ⟨1, _⟩ => show win0_1.index t (1 : Fin 2) * 2048 + 1 * k.val = k.val; omega
  · -- entry of one-row window 2
    show V m c main_v5 (((cfg0.win 2).blk t).view.emb (ix2 0 q)) = V m c main_v5 (ix2 0 (((cfg0.win 10).blk t).view.emb (ix2 p q) 1))
    refine congrArg (V m c main_v5) (funext fun a => Fin.ext ?_)
    match a with
    | ⟨0, _⟩ => show win0_2.index t (0 : Fin 2) * 1 + 1 * 0 = 0; omega
    | ⟨1, _⟩ => show win0_2.index t (1 : Fin 2) * 512 + 1 * q.val = win0_10.index t (1 : Fin 2) * 512 + 1 * q.val; omega
  · -- rows of weight window 3
    show V m c main_v2 (((cfg0.win 3).blk t).view.emb (ix2 q k)) = V m c main_v2 (ix2 (((cfg0.win 10).blk t).view.emb (ix2 p q) 1) k)
    refine congrArg (V m c main_v2) (funext fun a => Fin.ext ?_)
    match a with
    | ⟨0, _⟩ => show win0_3.index t (0 : Fin 2) * 512 + 1 * q.val = win0_10.index t (1 : Fin 2) * 512 + 1 * q.val; omega
    | ⟨1, _⟩ => show win0_3.index t (1 : Fin 2) * 2048 + 1 * k.val = k.val; omega
  · -- entry of one-row window 4
    show V m c main_v6 (((cfg0.win 4).blk t).view.emb (ix2 0 q)) = V m c main_v6 (ix2 0 (((cfg0.win 10).blk t).view.emb (ix2 p q) 1))
    refine congrArg (V m c main_v6) (funext fun a => Fin.ext ?_)
    match a with
    | ⟨0, _⟩ => show win0_4.index t (0 : Fin 2) * 1 + 1 * 0 = 0; omega
    | ⟨1, _⟩ => show win0_4.index t (1 : Fin 2) * 512 + 1 * q.val = win0_10.index t (1 : Fin 2) * 512 + 1 * q.val; omega
  · -- rows of weight window 5
    show V m c main_v3 (((cfg0.win 5).blk t).view.emb (ix2 q k)) = V m c main_v3 (ix2 (((cfg0.win 10).blk t).view.emb (ix2 p q) 1) k)
    refine congrArg (V m c main_v3) (funext fun a => Fin.ext ?_)
    match a with
    | ⟨0, _⟩ => show win0_5.index t (0 : Fin 2) * 512 + 1 * q.val = win0_10.index t (1 : Fin 2) * 512 + 1 * q.val; omega
    | ⟨1, _⟩ => show win0_5.index t (1 : Fin 2) * 2048 + 1 * k.val = k.val; omega
  · -- entry of one-row window 6
    show V m c main_v7 (((cfg0.win 6).blk t).view.emb (ix2 0 q)) = V m c main_v7 (ix2 0 (((cfg0.win 10).blk t).view.emb (ix2 p q) 1))
    refine congrArg (V m c main_v7) (funext fun a => Fin.ext ?_)
    match a with
    | ⟨0, _⟩ => show win0_6.index t (0 : Fin 2) * 1 + 1 * 0 = 0; omega
    | ⟨1, _⟩ => show win0_6.index t (1 : Fin 2) * 512 + 1 * q.val = win0_10.index t (1 : Fin 2) * 512 + 1 * q.val; omega
  · -- rows of weight window 7
    show V m c main_v4 (((cfg0.win 7).blk t).view.emb (ix2 q k)) = V m c main_v4 (ix2 (((cfg0.win 10).blk t).view.emb (ix2 p q) 1) k)
    refine congrArg (V m c main_v4) (funext fun a => Fin.ext ?_)
    match a with
    | ⟨0, _⟩ => show win0_7.index t (0 : Fin 2) * 512 + 1 * q.val = win0_10.index t (1 : Fin 2) * 512 + 1 * q.val; omega
    | ⟨1, _⟩ => show win0_7.index t (1 : Fin 2) * 2048 + 1 * k.val = k.val; omega
  · -- entry of one-row window 8
    show V m c main_v8 (((cfg0.win 8).blk t).view.emb (ix2 0 q)) = V m c main_v8 (ix2 0 (((cfg0.win 10).blk t).view.emb (ix2 p q) 1))
    refine congrArg (V m c main_v8) (funext fun a => Fin.ext ?_)
    match a with
    | ⟨0, _⟩ => show win0_8.index t (0 : Fin 2) * 1 + 1 * 0 = 0; omega
    | ⟨1, _⟩ => show win0_8.index t (1 : Fin 2) * 512 + 1 * q.val = win0_10.index t (1 : Fin 2) * 512 + 1 * q.val; omega
  · -- entry of one-row window 9
    show V m c main_arg9 (((cfg0.win 9).blk t).view.emb (ix2 0 q)) = V m c main_arg9 (ix2 0 (((cfg0.win 10).blk t).view.emb (ix2 p q) 1))
    refine congrArg (V m c main_arg9) (funext fun a => Fin.ext ?_)
    match a with
    | ⟨0, _⟩ => show win0_9.index t (0 : Fin 2) * 1 + 1 * 0 = 0; omega
    | ⟨1, _⟩ => show win0_9.index t (1 : Fin 2) * 512 + 1 * q.val = win0_10.index t (1 : Fin 2) * 512 + 1 * q.val; omega

/-- WHAT POINT `t` WRITES BACK is tile `t` of the hidden matrix of the arrays as the region finds them. -/
theorem flushed_eq (c : Dev nD) (t : Fin cfg0.N) :
    (dats m 0 c).flushed 10 t = ((cfg0.win 10).blk t).view.read (Elt Ideal) (hiddenOf m c) := by
  rw [Value.flushed10]
  unfold out0_10
  rw [View.canon_unit_zero hz]
  simp only [View.ld_unit_zero (S := S512x2048) hz, View.ld_unit_zero (S := S1x512) hz]
  funext y
  show k0_pay1 (k0_pay3 (iblk m c 0 t) (iblk m c 1 t) (iblk m c 2 t)) (k0_pay4 (iblk m c 0 t) (iblk m c 3 t) (iblk m c 4 t))
      (k0_pay5 (iblk m c 0 t) (iblk m c 5 t) (iblk m c 6 t)) (k0_pay6 (iblk m c 0 t) (iblk m c 7 t) (iblk m c 8 t)) (iblk m c 9 t) y
    = hiddenOf m c (((cfg0.win 10).blk t).view.emb y)
  rw [eq_ix2 y]
  exact tile_entry m c t (y 0) (y 1)

/-! ## The tiles cover the array -/

/-- An index of the array is in point `t`'s tile iff each coordinate is in the tile's range on its axis. -/
theorem mem_tile (t : Fin cfg0.N) (i : S4096x2048.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v9).slice (win0_10.rect t)).set ↔ _
  rw [View.set_slice_whole, Rect.mem_set_unit]
  exact Iff.rfl

/-- Every index is in the tile of the point whose tile indices are its coordinates divided by 512. -/
theorem covered (i : S4096x2048.Idx) : ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := tiles_onto ⟨(i 0).val / 512, by omega⟩ ⟨(i 1).val / 512, by omega⟩
  have q0 : win0_10.index t (0 : Fin 2) = (i 0).val / 512 := congrFun ht 0
  have q1 : win0_10.index t (1 : Fin 2) = (i 1).val / 512 := congrFun ht 1
  refine ⟨t, flush0_10 t, ?_⟩
  rw [mem_tile]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

/-- THE ARRAY after the run is the hidden matrix of the arrays as the region finds them. -/
theorem final (c : Dev nD) : (dats m 0 c).arrAt 10 cfg0.N = hiddenOf m c :=
  (dats m 0 c).arrAt_eq_of_cover 10 (hiddenOf m c) (fun t _ => flushed_eq m c t) (covered)

/-! ## The arrays the region finds are the arguments -/

theorem aX_eq (c : Dev nD) : aX m c = m ((c : Thread nD τ).loc main_arg0) := by
  unfold aX V; after_results; rfl
theorem aWi_eq (c : Dev nD) : aWi m c = m ((c : Thread nD τ).loc main_arg1) := by
  unfold aWi V; after_results; rfl
theorem aWf_eq (c : Dev nD) : aWf m c = m ((c : Thread nD τ).loc main_arg3) := by
  unfold aWf V; after_results; rfl
theorem aWg_eq (c : Dev nD) : aWg m c = m ((c : Thread nD τ).loc main_arg5) := by
  unfold aWg V; after_results; rfl
theorem aWo_eq (c : Dev nD) : aWo m c = m ((c : Thread nD τ).loc main_arg7) := by
  unfold aWo V; after_results; rfl
theorem aCx_eq (c : Dev nD) : aCx m c = m ((c : Thread nD τ).loc main_arg9) := V_main_arg9 m c

/-- A vector reshaped to one row reads the vector's entry at the column. -/
theorem oneRow (b : S2048.Idx → EReal) : (shapeCast S1x2048 b shapeCasts_S2048_S1x2048 : S1x2048.Idx → EReal) = Cell.row b := by
  funext j
  obtain ⟨z, q, rfl⟩ : ∃ (z : Fin 1) (q : Fin 2048), j = ix2 z q := ⟨j 0, j 1, eq_ix2 j⟩
  refine shapeCast_apply b shapeCasts_S2048_S1x2048 (ix2 z q) (ix1 q) ?_
  rw [Shape.rowMajor_val_one, Shape.rowMajor_val_two]
  show q.val = z.val * 2048 + q.val
  omega

theorem aBi_eq (c : Dev nD) : aBi m c = Cell.row (m ((c : Thread nD τ).loc main_arg2)) := by
  rw [← oneRow]; unfold aBi V; after_results; rfl
theorem aBf_eq (c : Dev nD) : aBf m c = Cell.row (m ((c : Thread nD τ).loc main_arg4)) := by
  rw [← oneRow]; unfold aBf V; after_results; rfl
theorem aBg_eq (c : Dev nD) : aBg m c = Cell.row (m ((c : Thread nD τ).loc main_arg6)) := by
  rw [← oneRow]; unfold aBg V; after_results; rfl
theorem aBo_eq (c : Dev nD) : aBo m c = Cell.row (m ((c : Thread nD τ).loc main_arg8)) := by
  rw [← oneRow]; unfold aBo V; after_results; rfl

/-- So the hidden matrix of the arrays as the region finds them is the cell's hidden matrix of the ten arguments. -/
theorem hiddenOf_eq (c : Dev nD) :
    hiddenOf m c = Cell.next (m ((c : Thread nD τ).loc main_arg0))
      (m ((c : Thread nD τ).loc main_arg1)) (m ((c : Thread nD τ).loc main_arg2))
      (m ((c : Thread nD τ).loc main_arg3)) (m ((c : Thread nD τ).loc main_arg4))
      (m ((c : Thread nD τ).loc main_arg5)) (m ((c : Thread nD τ).loc main_arg6))
      (m ((c : Thread nD τ).loc main_arg7)) (m ((c : Thread nD τ).loc main_arg8))
      (m ((c : Thread nD τ).loc main_arg9)) := by
  unfold hiddenOf Cell.next
  rw [aX_eq, aWi_eq, aBi_eq, aWf_eq, aBf_eq, aWg_eq, aBg_eq, aWo_eq, aBo_eq, aCx_eq]

/-! ## The run, read -/

/-- Every weakly fair execution of the idealized kernel ends with the result array at the cell's hidden matrix of the
    arguments, and the arguments unchanged. -/
theorem run : θ_run defs (onTc (τ := τ) (main (F := Ideal))) ⟨m, fun _ => 0, ρ⟩ fun r => ∀ c : Dev nD,
      r.2.mem ((c : Thread nD τ).loc main_v9) = Cell.next (m ((c : Thread nD τ).loc main_arg0))
        (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8))
        (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1.trans (final m c)).trans (hiddenOf_eq m c), (h c).2⟩)
    (Value.run_blocks m ρ)

end Cert.KernelIdeal.Whole

end
-- ==== Proof.RefCell.lean ====
/-
  The reference computes the cell.

  The reference transposes each weight matrix and multiplies the input by it, so entry (p, q) of the product is again the
  inner product of input row p with weight row q; it broadcasts each bias vector to a one-row matrix and then along the
  rows; it spells the logistic function as one over one plus e to the minus z. Read entry by entry, its result is
  `Cell.next` of its ten arguments.
-/
import proofs.«136976_j60292750901718_1_alg».proof.Proof.Gen.ReferenceIdeal.Read
import proofs.«136976_j60292750901718_1_alg».proof.Proof.Cell
import Idealize.ShloMosaic.Lib.ValueIdx

noncomputable section

namespace Cert.ReferenceIdeal.RefValue

open Cert.ReferenceIdeal Cert.ReferenceIdeal.Read Idealize.ShloMosaic Idealize.ShloMosaic.ValueIdx
open scoped BigOperators

/-! ## Where the stages read their operands -/

theorem lrow (p : Fin 4096) (q k : Fin 2048) : lidx_main_v1 (ix2 p q) k = ix2 p k :=
  funext fun a => Fin.ext (by match a with | ⟨0, _⟩ => rfl | ⟨1, _⟩ => rfl)
theorem rcol (p : Fin 4096) (q k : Fin 2048) : ridx_main_v1 (ix2 p q) k = ix2 k q :=
  funext fun a => Fin.ext (by match a with | ⟨0, _⟩ => rfl | ⟨1, _⟩ => rfl)
theorem swap (k q : Fin 2048) : idx_main_v0 (ix2 k q) = ix2 q k :=
  funext fun a => Fin.ext (by match a with | ⟨0, _⟩ => rfl | ⟨1, _⟩ => rfl)
theorem onerow (p : Fin 4096) (q : Fin 2048) : idx_main_v3 (ix2 p q) = ix2 0 q :=
  funext fun a => Fin.ext (by match a with | ⟨0, _⟩ => rfl | ⟨1, _⟩ => rfl)
theorem vecpos (q : Fin 2048) : idx_main_v2 (ix2 (0 : Fin 1) q) = ix1 q :=
  funext fun a => Fin.ext (by match a with | ⟨0, _⟩ => rfl)

/-! ## The four pre-activations -/

theorem pre_i (x0 : (⟨S4096x2048, .f32⟩ : BufTy).Contents (Elt Ideal)) (x1 : (⟨S2048x2048, .f32⟩ : BufTy).Contents (Elt Ideal)) (x2 : (⟨S2048, .f32⟩ : BufTy).Contents (Elt Ideal)) (p : Fin 4096) (q : Fin 2048) :
    val_main_v4 (F := Ideal) x0 x1 x2 (ix2 p q) = Cell.pre x0 x1 (Cell.row x2) p q := by
  rw [val_main_v4_apply, val_main_v1_apply, val_main_v3_apply, val_main_v2_apply]
  simp only [val_main_v0_apply]
  unfold Cell.pre Cell.row
  refine congrArg₂ (· + ·) (Finset.sum_congr rfl fun k _ => ?_) ?_
  · rw [show lidx_main_v1 (ix2 p q) k = ix2 p k from lrow p q k, show ridx_main_v1 (ix2 p q) k = ix2 k q from rcol p q k,
      show idx_main_v0 (ix2 k q) = ix2 q k from swap k q]
  · rw [show idx_main_v3 (ix2 p q) = ix2 0 q from onerow p q, show idx_main_v2 (ix2 (0 : Fin 1) q) = ix1 q from vecpos q]
theorem pre_f (x0 : (⟨S4096x2048, .f32⟩ : BufTy).Contents (Elt Ideal)) (x3 : (⟨S2048x2048, .f32⟩ : BufTy).Contents (Elt Ideal)) (x4 : (⟨S2048, .f32⟩ : BufTy).Contents (Elt Ideal)) (p : Fin 4096) (q : Fin 2048) :
    val_main_v15 (F := Ideal) x0 x3 x4 (ix2 p q) = Cell.pre x0 x3 (Cell.row x4) p q := by
  rw [val_main_v15_apply, val_main_v12_apply, val_main_v14_apply, val_main_v13_apply]
  simp only [val_main_v11_apply]
  unfold Cell.pre Cell.row
  refine congrArg₂ (· + ·) (Finset.sum_congr rfl fun k _ => ?_) ?_
  · rw [show lidx_main_v12 (ix2 p q) k = ix2 p k from lrow p q k, show ridx_main_v12 (ix2 p q) k = ix2 k q from rcol p q k,
      show idx_main_v11 (ix2 k q) = ix2 q k from swap k q]
  · rw [show idx_main_v14 (ix2 p q) = ix2 0 q from onerow p q, show idx_main_v13 (ix2 (0 : Fin 1) q) = ix1 q from vecpos q]
theorem pre_g (x0 : (⟨S4096x2048, .f32⟩ : BufTy).Contents (Elt Ideal)) (x5 : (⟨S2048x2048, .f32⟩ : BufTy).Contents (Elt Ideal)) (x6 : (⟨S2048, .f32⟩ : BufTy).Contents (Elt Ideal)) (p : Fin 4096) (q : Fin 2048) :
    val_main_v26 (F := Ideal) x0 x5 x6 (ix2 p q) = Cell.pre x0 x5 (Cell.row x6) p q := by
  rw [val_main_v26_apply, val_main_v23_apply, val_main_v25_apply, val_main_v24_apply]
  simp only [val_main_v22_apply]
  unfold Cell.pre Cell.row
  refine congrArg₂ (· + ·) (Finset.sum_congr rfl fun k _ => ?_) ?_
  · rw [show lidx_main_v23 (ix2 p q) k = ix2 p k from lrow p q k, show ridx_main_v23 (ix2 p q) k = ix2 k q from rcol p q k,
      show idx_main_v22 (ix2 k q) = ix2 q k from swap k q]
  · rw [show idx_main_v25 (ix2 p q) = ix2 0 q from onerow p q, show idx_main_v24 (ix2 (0 : Fin 1) q) = ix1 q from vecpos q]
theorem pre_o (x0 : (⟨S4096x2048, .f32⟩ : BufTy).Contents (Elt Ideal)) (x7 : (⟨S2048x2048, .f32⟩ : BufTy).Contents (Elt Ideal)) (x8 : (⟨S2048, .f32⟩ : BufTy).Contents (Elt Ideal)) (p : Fin 4096) (q : Fin 2048) :
    val_main_v32 (F := Ideal) x0 x7 x8 (ix2 p q) = Cell.pre x0 x7 (Cell.row x8) p q := by
  rw [val_main_v32_apply, val_main_v29_apply, val_main_v31_apply, val_main_v30_apply]
  simp only [val_main_v28_apply]
  unfold Cell.pre Cell.row
  refine congrArg₂ (· + ·) (Finset.sum_congr rfl fun k _ => ?_) ?_
  · rw [show lidx_main_v29 (ix2 p q) k = ix2 p k from lrow p q k, show ridx_main_v29 (ix2 p q) k = ix2 k q from rcol p q k,
      show idx_main_v28 (ix2 k q) = ix2 q k from swap k q]
  · rw [show idx_main_v31 (ix2 p q) = ix2 0 q from onerow p q, show idx_main_v30 (ix2 (0 : Fin 1) q) = ix1 q from vecpos q]

/-! ## The four gates -/

theorem gate_i (x0 : (⟨S4096x2048, .f32⟩ : BufTy).Contents (Elt Ideal)) (x1 : (⟨S2048x2048, .f32⟩ : BufTy).Contents (Elt Ideal)) (x2 : (⟨S2048, .f32⟩ : BufTy).Contents (Elt Ideal)) (p : Fin 4096) (q : Fin 2048) :
    val_main_v10 (F := Ideal) x0 x1 x2 (ix2 p q) = Ideal.logistic (Cell.pre x0 x1 (Cell.row x2) p q) := by
  rw [val_main_v10_apply, val_main_v9_apply, val_main_cst_0_apply, val_main_v8_apply, val_main_v7_apply, val_main_cst_apply,
    val_main_v6_apply, val_main_v5_apply, pre_i]
  exact Cell.one_div_one_add_exp_neg _
theorem gate_f (x0 : (⟨S4096x2048, .f32⟩ : BufTy).Contents (Elt Ideal)) (x3 : (⟨S2048x2048, .f32⟩ : BufTy).Contents (Elt Ideal)) (x4 : (⟨S2048, .f32⟩ : BufTy).Contents (Elt Ideal)) (p : Fin 4096) (q : Fin 2048) :
    val_main_v21 (F := Ideal) x0 x3 x4 (ix2 p q) = Ideal.logistic (Cell.pre x0 x3 (Cell.row x4) p q) := by
  rw [val_main_v21_apply, val_main_v20_apply, val_main_cst_2_apply, val_main_v19_apply, val_main_v18_apply, val_main_cst_1_apply,
    val_main_v17_apply, val_main_v16_apply, pre_f]
  exact Cell.one_div_one_add_exp_neg _
theorem gate_g (x0 : (⟨S4096x2048, .f32⟩ : BufTy).Contents (Elt Ideal)) (x5 : (⟨S2048x2048, .f32⟩ : BufTy).Contents (Elt Ideal)) (x6 : (⟨S2048, .f32⟩ : BufTy).Contents (Elt Ideal)) (p : Fin 4096) (q : Fin 2048) :
    val_main_v27 (F := Ideal) x0 x5 x6 (ix2 p q) = Ideal.tanh (Cell.pre x0 x5 (Cell.row x6) p q) := by
  rw [val_main_v27_apply, pre_g]
  rfl
theorem gate_o (x0 : (⟨S4096x2048, .f32⟩ : BufTy).Contents (Elt Ideal)) (x7 : (⟨S2048x2048, .f32⟩ : BufTy).Contents (Elt Ideal)) (x8 : (⟨S2048, .f32⟩ : BufTy).Contents (Elt Ideal)) (p : Fin 4096) (q : Fin 2048) :
    val_main_v38 (F := Ideal) x0 x7 x8 (ix2 p q) = Ideal.logistic (Cell.pre x0 x7 (Cell.row x8) p q) := by
  rw [val_main_v38_apply, val_main_v37_apply, val_main_cst_4_apply, val_main_v36_apply, val_main_v35_apply, val_main_cst_3_apply,
    val_main_v34_apply, val_main_v33_apply, pre_o]
  exact Cell.one_div_one_add_exp_neg _

/-! ## The result -/

/-- The reference's result, as the generated stages name it, is the cell's hidden matrix of the ten arguments. -/
theorem result_eq (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S1x2048, .f32⟩ : BufTy).Contents (Elt Ideal)) :
    val_main_v44 (F := Ideal) x0 x1 x2 x3 x4 x5 x6 x7 x8 x9 = Cell.next x0 x1 x2 x3 x4 x5 x6 x7 x8 x9 := by
  funext j
  obtain ⟨p, q, rfl⟩ : ∃ (p : Fin 4096) (q : Fin 2048), j = ix2 p q := ⟨j 0, j 1, eq_ix2 j⟩
  rw [val_main_v44_apply, val_main_v43_apply, val_main_v42_apply, val_main_v40_apply, val_main_v41_apply, val_main_v39_apply,
    gate_o, gate_f, gate_i, gate_g, show idx_main_v39 (ix2 p q) = ix2 0 q from onerow p q]
  rfl

end Cert.ReferenceIdeal.RefValue

end
-- ==== Proof.lean ====
/-
  A tiled kernel for one step of a long short-term memory cell against its whole-array reference, on the extended reals.

  Both programs compute, at entry (p, q) of a 4096 × 2048 matrix, output · tanh (forget · old cell + input · candidate), each
  gate an activation of (input row p against that gate's weight row q) plus the gate's bias at q (`Cell.hidden`). The kernel
  does it tile by tile, 8 × 4 tiles of 512 × 512, multiplying with both operands contracted on their second axis; its
  narrowing of the operands to a shorter float format is the identity on the extended reals. The reference transposes the
  weights and multiplies whole arrays, and spells the logistic function as one over one plus e to the minus z. The two
  results are the same function of the ten arguments (`Cell.next`): the sums are the same sums, term by term, so the
  equality needs no finiteness and the precondition is never opened.

  The frames of the two kernel programs are the generated ones; the reference's frame is its generated run with the result
  dropped. The pass that idealized the kernel rewrote nothing, so there is nothing to preserve.
-/
import proofs.«136976_j60292750901718_1_alg».proof.Defs
import proofs.«136976_j60292750901718_1_alg».proof.Proof.Gen.Kernel
import proofs.«136976_j60292750901718_1_alg».proof.Proof.Gen.Kernel.Skeleton
import proofs.«136976_j60292750901718_1_alg».proof.Proof.Gen.Kernel.Launch
import proofs.«136976_j60292750901718_1_alg».proof.Proof.Gen.Kernel.Points
import proofs.«136976_j60292750901718_1_alg».proof.Proof.Gen.Kernel.Frame
import proofs.«136976_j60292750901718_1_alg».proof.Proof.Gen.KernelIdeal
import proofs.«136976_j60292750901718_1_alg».proof.Proof.Gen.KernelIdeal.Skeleton
import proofs.«136976_j60292750901718_1_alg».proof.Proof.Gen.KernelIdeal.Launch
import proofs.«136976_j60292750901718_1_alg».proof.Proof.Gen.KernelIdeal.Points
import proofs.«136976_j60292750901718_1_alg».proof.Proof.Gen.KernelIdeal.Frame
import proofs.«136976_j60292750901718_1_alg».proof.Proof.Gen.ReferenceIdeal
import proofs.«136976_j60292750901718_1_alg».proof.Proof.Gen.Pre_finite_inputs
import proofs.«136976_j60292750901718_1_alg».proof.Proof.Gen.KernelIdeal.Value
import proofs.«136976_j60292750901718_1_alg».proof.Proof.Gen.ReferenceIdeal.Run
import proofs.«136976_j60292750901718_1_alg».proof.Proof.Gen.ReferenceIdeal.Read
import proofs.«136976_j60292750901718_1_alg».proof.Proof.HiddenArray
import proofs.«136976_j60292750901718_1_alg».proof.Proof.RefCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the cell's hidden matrix of arguments that agree. -/
theorem algebraic : Cert.algebraic_KernelIdeal_ReferenceIdeal := by
  intro m ρ m' ρ' _ hagree
  refine ⟨fun c => Cert.Cell.next
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9⟩ := hagree c
  rw [(h c).1, Cert.ReferenceIdeal.Read.val_main_v44_eq, Cert.ReferenceIdeal.RefValue.result_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
